-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S500000x128 : S_.BroadcastsInDim S500000x128 (![] : Fin 0 → Fin S500000x128.rank)
  reducesTo_S500000x128_S_d0_1 : S500000x128.ReducesTo [0, 1] S_
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S256x128 .f32) (main_arg6 : FVec F S128 .f32) (main_arg7 : FVec F S256x256 .f32) (main_arg8 : FVec F S256 .f32) (main_arg9 : FVec F S256x128 .f32) (main_arg10 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x500000 32) (main_arg2 : FVec F S500000x128 .f32) (main_arg3 : FVec F S384x256 .f32) (main_arg4 : FVec F S256 .f32) (main_arg5 : FVec F S256x128 .f32) (main_arg6 : FVec F S128 .f32) (main_arg7 : FVec F S256x256 .f32) (main_arg8 : FVec F S256 .f32) (main_arg9 : FVec F S256x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S500000x128 .f32 := Host.absf main_arg2
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S384x256 .f32 := Host.absf main_arg3
  let main_cst_2 : FVec F S_ .f32 := constant S_ .f32 0x7F800000#32
  let main_v10 : FVec F S384x256 .f32 := broadcastInDim S384x256 ![] bcast_S_S384x256 main_cst_2
  let main_v11 : IVec S384x256 1 := cmpf .olt main_v9 main_v10
  let main_c_3 : IVec S_ 1 := constantI S_ 1 1#1
  let main_v12 : IVec S_ 1 := (fun x v => Host.reduce IntOp.andi x v reducesTo_S384x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x500000 : Shape := ⟨2, ![2, 500000]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1x256 : Shape := ⟨2, ![1, 256]⟩
abbrev S1x128 : Shape := ⟨2, ![1, 128]⟩
abbrev S2000x128 : Shape := ⟨2, ![2000, 128]⟩
abbrev S2000x384 : Shape := ⟨2, ![2000, 384]⟩
abbrev S2000x256 : Shape := ⟨2, ![2000, 256]⟩

abbrev nBuf : Space → Nat
  | .hbm => 43
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S1x256, .f32⟩
  | .hbm, ⟨34, _⟩ => ⟨S1x128, .f32⟩
  | .hbm, ⟨35, _⟩ => ⟨S1x256, .f32⟩
  | .hbm, ⟨36, _⟩ => ⟨S1x128, .f32⟩
  | .hbm, ⟨37, _⟩ => ⟨S500000x128, .f32⟩
  | .hbm, ⟨38, _⟩ => ⟨S_, .f32⟩
  | .hbm, ⟨39, _⟩ => ⟨S50000x128, .f32⟩
  | .hbm, ⟨40, _⟩ => ⟨S500000x1, .i32⟩
  | .hbm, ⟨41, _⟩ => ⟨S50000x128, .f32⟩
  | .hbm, ⟨42, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S384x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S256x256, .f32⟩
  | .local _ .vmem, ⟨17, _⟩ => ⟨S1x256, .f32⟩
  | .local _ .vmem, ⟨18, _⟩ => ⟨S256x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  shapeCasts_S256_S1x256 : S256.ShapeCasts S1x256
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  concatenates_S2000x128_S2000x128_S2000x128_S2000x384_d1 : Shape.Concatenates [S2000x128, S2000x128, S2000x128] S2000x384 1
  inb_S384x256_S384x256_0_0 : ∀ a, (![0, 0] : Fin 2 → Nat) a + S384x256.size a ≤ S384x256.size a
  h_S384x256 : 0 < S384x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S50000x128 : S_.BroadcastsInDim S50000x128 (![] : Fin 0 → Fin S50000x128.rank)
  concatenates_S2000x128_S2000x128_S2000x256_d1 : Shape.Concatenates [S2000x128, S2000x128] S2000x256 1
  inb_S256x256_S256x256_0_0 : ∀ a, (![0, 0] : Fin 2 → Nat) a + S256x256.size a ≤ S256x256.size a
  h_S256x256 : 0 < S256x256.numel
  gather_S50000x128_S500000x1_S500000x128_1_0_n_n_0_1_1128_wf : GatherDims.WF S50000x128 S500000x1 S500000x128 [1] [0] [] [0] [] 1 ![1, 128]
  dot_S2000x384_S384x256_S2000x256_1_0_0_1_n_n_wf : DotDims.WF S2000x384 S384x256 S2000x256 [1] [0] [0] [1] [] []
  dot_S2000x256_S256x128_S2000x128_1_0_0_1_n_n_wf : DotDims.WF S2000x256 S256x128 S2000x128 [1] [0] [0] [1] [] []
  scatter_S50000x128_S500000x1_S500000x128_1_0_0_1_wf : ScatterDims.WF S50000x128 S500000x1 S500000x128 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S500000x128.size a
  hwx0_0 : ∀ i : grid0.Coords, EltTy.bits .f32 = 32 ∨ (Rect.block (s := S500000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S500000x128.size a
  hwx0_1 : ∀ i : grid0.Coords, EltTy.bits .f32 = 32 ∨ (Rect.block (s := S500000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S500000x128.size a
  hwx0_2 : ∀ i : grid0.Coords, EltTy.bits .f32 = 32 ∨ (Rect.block (s := S500000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x256.size a ≤ S384x256.size a
  hwx0_3 : ∀ i : grid0.Coords, EltTy.bits .f32 = 32 ∨ (Rect.block (s := S384x256) S384x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S500000x128.size a
  hwx0_7 : ∀ i : grid0.Coords, EltTy.bits .f32 = 32 ∨ (Rect.block (s := S500000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .f32 = 32 ∨ (Rect.block (s := S256x128) S256x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S2000x384_S384x256_S2000x256_1_0_0_1_n_n : DotDims S2000x384 S384x256 S2000x256 where
  lhsContracting := [1]
  rhsContracting := [0]
  lhsNonContracting := [0]
  rhsNonContracting := [1]
  lhsBatch := []
  rhsBatch := []
  wf := dot_S2000x384_S384x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v10) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S384x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v22) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v21) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S500000x128 : Shape := ⟨2, ![500000, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x384 : Shape := ⟨2, ![500000, 384]⟩
abbrev S500000x256 : Shape := ⟨2, ![500000, 256]⟩
abbrev S1x256 : Shape := ⟨2, ![1, 256]⟩
abbrev S1x128 : Shape := ⟨2, ![1, 128]⟩
abbrev S50000x256 : Shape := ⟨2, ![50000, 256]⟩

abbrev nBuf : Space → Nat
  | .hbm => 61
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S500000x128, .f32⟩
  | .hbm, ⟨3, _⟩ => ⟨S384x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x500000, .i32⟩
  | .hbm, ⟨12, _⟩ => ⟨S500000, .i32⟩
  | .hbm, ⟨13, _⟩ => ⟨S1x500000, .i32⟩
  | .hbm, ⟨14, _⟩ => ⟨S500000, .i32⟩
  | .hbm, ⟨15, _⟩ => ⟨S_, .i32⟩
  | .hbm, ⟨16, _⟩ => ⟨S500000, .i32⟩
  | .hbm, ⟨17, _⟩ => ⟨S500000, .i1⟩
  | .hbm, ⟨18, _⟩ => ⟨S_, .i32⟩
  | .hbm, ⟨19, _⟩ => ⟨S500000, .i32⟩
  | .hbm, ⟨20, _⟩ => ⟨S500000, .i32⟩
  | .hbm, ⟨21, _⟩ => ⟨S500000, .i32⟩
  | .hbm, ⟨22, _⟩ => ⟨S500000x1, .i32⟩
  | .hbm, ⟨23, _⟩ => ⟨S500000x128, .f32⟩
  | .hbm, ⟨24, _⟩ => ⟨S_, .i32⟩
  | .hbm, ⟨25, _⟩ => ⟨S500000, .i32⟩
  | .hbm, ⟨26, _⟩ => ⟨S500000, .i1⟩
  | .hbm, ⟨27, _⟩ => ⟨S_, .i32⟩
  | .hbm, ⟨28, _⟩ => ⟨S500000, .i32⟩
  | .hbm, ⟨29, _⟩ => ⟨S500000, .i32⟩
  | .hbm, ⟨30, _⟩ => ⟨S500000, .i32⟩
  | .hbm, ⟨31, _⟩ => ⟨S500000x1, .i32⟩
  | .hbm, ⟨32, _⟩ => ⟨S500000x128, .f32⟩
  | .hbm, ⟨33, _⟩ => ⟨S500000x384, .f32⟩
  | .hbm, ⟨34, _⟩ => ⟨S500000x256, .f32⟩
  | .hbm, ⟨35, _⟩ => ⟨S1x256, .f32⟩
  | .hbm, ⟨36, _⟩ => ⟨S500000x256, .f32⟩
  | .hbm, ⟨37, _⟩ => ⟨S500000x256, .f32⟩
  | .hbm, ⟨38, _⟩ => ⟨S_, .f32⟩
  | .hbm, ⟨39, _⟩ => ⟨S500000x256, .f32⟩
  | .hbm, ⟨40, _⟩ => ⟨S500000x256, .f32⟩
  | .hbm, ⟨41, _⟩ => ⟨S500000x128, .f32⟩
  | .hbm, ⟨42, _⟩ => ⟨S1x128, .f32⟩
  | .hbm, ⟨43, _⟩ => ⟨S500000x128, .f32⟩
  | .hbm, ⟨44, _⟩ => ⟨S500000x128, .f32⟩
  | .hbm, ⟨45, _⟩ => ⟨S_, .f32⟩
  | .hbm, ⟨46, _⟩ => ⟨S50000x128, .f32⟩
  | .hbm, ⟨47, _⟩ => ⟨S500000x1, .i32⟩
  | .hbm, ⟨48, _⟩ => ⟨S50000x128, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S50000x256, .f32⟩
  | .hbm, ⟨53, _⟩ => ⟨S50000x256, .f32⟩
  | .hbm, ⟨54, _⟩ => ⟨S_, .f32⟩
  | .hbm, ⟨55, _⟩ => ⟨S50000x256, .f32⟩
  | .hbm, ⟨56, _⟩ => ⟨S50000x256, .f32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_cst : Ref sig .tc := ⟨.hbm, 54, rfl⟩
abbrev main_call1_v0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S1x128_S50000x128_0_1 : S1x128.BroadcastsInDim S50000x128 (![0, 1] : Fin 2 → Fin S50000x128.rank)
  gather_S50000x128_S500000x1_S500000x128_1_0_n_n_0_1_1128_wf : GatherDims.WF S50000x128 S500000x1 S500000x128 [1] [0] [] [0] [] 1 ![1, 128]
  dot_S500000x384_S384x256_S500000x256_1_0_0_1_n_n_wf : DotDims.WF S500000x384 S384x256 S500000x256 [1] [0] [0] [1] [] []
  dot_S500000x256_S256x128_S500000x128_1_0_0_1_n_n_wf : DotDims.WF S500000x256 S256x128 S500000x128 [1] [0] [0] [1] [] []
  scatter_S50000x128_S500000x1_S500000x128_1_0_0_1_wf : ScatterDims.WF S50000x128 S500000x1 S500000x128 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x128_S500000x1_S500000x128_1_0_n_n_0_1_1128 : GatherDims S50000x128 S500000x1 S500000x128 where
  offsetDims := [1]
  collapsedSliceDims := [0]
  operandBatchingDims := []
  startIndicesBatchingDims := []
  startIndexMap := [0]
  indexVectorDim := 1
  sliceSizes := ![1, 128]
  wf := gather_S50000x128_S500000x1_S500000x128_1_0_n_n_0_1_1128_wf
def dot_S500000x384_S384x256_S500000x256_1_0_0_1_n_n : DotDims S500000x384 S384x256 S500000x256 where
  lhsContracting := [1]
  rhsContracting := [0]
  lhsNonContracting := [0]
  rhsNonContracting := [1]
  lhsBatch := []
  rhsBatch := []
  wf := dot_S500000x384_S384x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S50000x128_S500000x1_S500000x128_1_0_0_1 : ScatterDims S50000x128 S500000x1 S500000x128 where
  updateWindowDims := [1]
  insertedWindowDims := [0]
  scatterDimsToOperandDims := [0]
  indexVectorDim := 1
  wf := scatter_S50000x128_S500000x1_S500000x128_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Spec.lean ====
/-
  The mathematics both programs compute, stated once over plain index types.

  A two-layer perceptron row: from an input row `a` of `K` entries, a first weight matrix `w1` (K × 256), a bias
  `b1`, a second weight matrix `w2` (256 × 128) and a bias `b2`, entry `q` of the output row is
      ( ∑ₖ max( (∑ₗ a l · w1 l k) + b1 k , 0 ) · w2 k q ) + b2 q
  on the extended reals. The input row is itself rows of 128 entries laid end to end (three for the edge model:
  the source node's features, the destination node's, the edge's; two for the node model: the node's features and
  the messages summed at it). Reading a concatenation along the second axis at an index is picking the piece
  `l / 128` at column `l % 128`, whatever the number of rows.
-/
import Idealize.ShloMosaic.PureOps.Ideal
import Idealize.ShloMosaic.Lib.ValueIdx
import Idealize.ShloMosaic.Lib.Pipeline.Value

noncomputable section

namespace Cert.Spec

open Idealize.ShloMosaic Idealize.ShloMosaic.ValueIdx

/-- Row `p` of a two-axis array. -/
def row {α : Type} {R C : Nat} (x : (⟨2, ![R, C]⟩ : Shape).Idx → α) (p : Fin R) : Fin C → α := fun c => x (ix2 p c)

theorem row_apply {α : Type} {R C : Nat} (x : (⟨2, ![R, C]⟩ : Shape).Idx → α) (p : Fin R) (c : Fin C) :
    row x p c = x (ix2 p c) := rfl

/-- Three rows of 128 entries laid end to end: entry `l` is entry `l % 128` of row `l / 128`. -/
def cat3 {α : Type} (a b c : Fin 128 → α) (l : Fin 384) : α :=
  (![a, b, c] : Fin 3 → Fin 128 → α) ⟨l.val / 128, by have := l.isLt; omega⟩ ⟨l.val % 128, Nat.mod_lt _ (by decide)⟩

/-- Two rows of 128 entries laid end to end. -/
def cat2 {α : Type} (a b : Fin 128 → α) (l : Fin 256) : α :=
  (![a, b] : Fin 2 → Fin 128 → α) ⟨l.val / 128, by have := l.isLt; omega⟩ ⟨l.val % 128, Nat.mod_lt _ (by decide)⟩

/-- Entry `q` of one output row of the two-layer perceptron, on the extended reals; the rectifier's zero is kept
    as the float word both programs print. -/
def mlpRow {K : Nat} (a : Fin K → EReal) (w1 : (⟨2, ![K, 256]⟩ : Shape).Idx → EReal) (b1 : Fin 256 → EReal)
    (w2 : (⟨2, ![256, 128]⟩ : Shape).Idx → EReal) (b2 : Fin 128 → EReal) (q : Fin 128) : EReal :=
  (∑ k : Fin 256, max ((∑ l : Fin K, a l * w1 (ix2 l k)) + b1 k) (Ideal.ofBits .f32 0x00000000#32) * w2 (ix2 k q)) + b2 q

/-- A concatenation of three R × 128 arrays along the second axis, read at row `i` and column `l`: the three rows
    `i` laid end to end, at `l`. -/
theorem concat3_apply {α : Type} (R : Nat) (x y z : (⟨2, ![R, 128]⟩ : Shape).Idx → α)
    (h : Shape.Concatenates [(⟨2, ![R, 128]⟩ : Shape), (⟨2, ![R, 128]⟩ : Shape), (⟨2, ![R, 128]⟩ : Shape)] (⟨2, ![R, 384]⟩ : Shape) 1)
    (i : Fin R) (l : Fin 384) :
    concatenate (⟨2, ![R, 384]⟩ : Shape) 1 [⟨(⟨2, ![R, 128]⟩ : Shape), x⟩, ⟨(⟨2, ![R, 128]⟩ : Shape), y⟩, ⟨(⟨2, ![R, 128]⟩ : Shape), z⟩] h (ix2 i l)
      = cat3 (row x i) (row y i) (row z i) l := by
  have hl := l.isLt
  have e := concatenate_ofFn_apply (t := (⟨2, ![R, 384]⟩ : Shape)) (s₁ := (⟨2, ![R, 128]⟩ : Shape)) (1 : Fin 2)
    (N := 3) (![x, y, z] : Fin 3 → ((⟨2, ![R, 128]⟩ : Shape).Idx → α)) h rfl 128 rfl (ix2 i l)
    ⟨l.val / 128, by omega⟩ rfl (ix2 i ⟨l.val % 128, Nat.mod_lt _ (by decide)⟩) rfl
    (fun b hb => by
      match b with
      | ⟨0, _⟩ => rfl
      | ⟨1, _⟩ => exact absurd rfl hb)
  have aux : ∀ (n : Fin 3) (c : Fin 128),
      (![x, y, z] : Fin 3 → ((⟨2, ![R, 128]⟩ : Shape).Idx → α)) n (ix2 i c)
        = (![row x i, row y i, row z i] : Fin 3 → Fin 128 → α) n c := by
    intro n c
    fin_cases n <;> rfl
  exact e.trans (aux _ _)

/-- A concatenation of two R × 128 arrays along the second axis, read at row `i` and column `l`. -/
theorem concat2_apply {α : Type} (R : Nat) (x y : (⟨2, ![R, 128]⟩ : Shape).Idx → α)
    (h : Shape.Concatenates [(⟨2, ![R, 128]⟩ : Shape), (⟨2, ![R, 128]⟩ : Shape)] (⟨2, ![R, 256]⟩ : Shape) 1)
    (i : Fin R) (l : Fin 256) :
    concatenate (⟨2, ![R, 256]⟩ : Shape) 1 [⟨(⟨2, ![R, 128]⟩ : Shape), x⟩, ⟨(⟨2, ![R, 128]⟩ : Shape), y⟩] h (ix2 i l)
      = cat2 (row x i) (row y i) l := by
  have hl := l.isLt
  have e := concatenate_ofFn_apply (t := (⟨2, ![R, 256]⟩ : Shape)) (s₁ := (⟨2, ![R, 128]⟩ : Shape)) (1 : Fin 2)
    (N := 2) (![x, y] : Fin 2 → ((⟨2, ![R, 128]⟩ : Shape).Idx → α)) h rfl 128 rfl (ix2 i l)
    ⟨l.val / 128, by omega⟩ rfl (ix2 i ⟨l.val % 128, Nat.mod_lt _ (by decide)⟩) rfl
    (fun b hb => by
      match b with
      | ⟨0, _⟩ => rfl
      | ⟨1, _⟩ => exact absurd rfl hb)
  have aux : ∀ (n : Fin 2) (c : Fin 128),
      (![x, y] : Fin 2 → ((⟨2, ![R, 128]⟩ : Shape).Idx → α)) n (ix2 i c)
        = (![row x i, row y i] : Fin 2 → Fin 128 → α) n c := by
    intro n c
    fin_cases n <;> rfl
  exact e.trans (aux _ _)

/-- The edge model on whole arrays: output entry (i, q) is the perceptron row of the three input rows `i` laid end
    to end, at `q`. -/
def mlpOn3 {R : Nat} (xr xc ea : (⟨2, ![R, 128]⟩ : Shape).Idx → EReal) (w1 : (⟨2, ![384, 256]⟩ : Shape).Idx → EReal)
    (b1 : Fin 256 → EReal) (w2 : (⟨2, ![256, 128]⟩ : Shape).Idx → EReal) (b2 : Fin 128 → EReal) :
    (⟨2, ![R, 128]⟩ : Shape).Idx → EReal :=
  fun i => mlpRow (cat3 (row xr (i 0)) (row xc (i 0)) (row ea (i 0))) w1 b1 w2 b2 (i 1)

/-- The node model on whole arrays: output entry (i, q) is the perceptron row of the two input rows `i` laid end to
    end, at `q`. -/
def mlpOn2 {R : Nat} (x agg : (⟨2, ![R, 128]⟩ : Shape).Idx → EReal) (w1 : (⟨2, ![256, 256]⟩ : Shape).Idx → EReal)
    (b1 : Fin 256 → EReal) (w2 : (⟨2, ![256, 128]⟩ : Shape).Idx → EReal) (b2 : Fin 128 → EReal) :
    (⟨2, ![R, 128]⟩ : Shape).Idx → EReal :=
  fun i => mlpRow (cat2 (row x (i 0)) (row agg (i 0))) w1 b1 w2 b2 (i 1)

theorem mlpOn3_apply {R : Nat} (xr xc ea : (⟨2, ![R, 128]⟩ : Shape).Idx → EReal) (w1 : (⟨2, ![384, 256]⟩ : Shape).Idx → EReal)
    (b1 : Fin 256 → EReal) (w2 : (⟨2, ![256, 128]⟩ : Shape).Idx → EReal) (b2 : Fin 128 → EReal) (i : Fin R) (q : Fin 128) :
    mlpOn3 xr xc ea w1 b1 w2 b2 (ix2 i q) = mlpRow (cat3 (row xr i) (row xc i) (row ea i)) w1 b1 w2 b2 q := rfl

theorem mlpOn2_apply {R : Nat} (x agg : (⟨2, ![R, 128]⟩ : Shape).Idx → EReal) (w1 : (⟨2, ![256, 256]⟩ : Shape).Idx → EReal)
    (b1 : Fin 256 → EReal) (w2 : (⟨2, ![256, 128]⟩ : Shape).Idx → EReal) (b2 : Fin 128 → EReal) (i : Fin R) (q : Fin 128) :
    mlpOn2 x agg w1 b1 w2 b2 (ix2 i q) = mlpRow (cat2 (row x i) (row agg i)) w1 b1 w2 b2 q := rfl

end Cert.Spec

end
-- ==== Proof.KernelPay.lean ====
/-
  The two kernel bodies' arithmetic, read at one index of the output block, on the extended reals.

  Each body forms, from rows of 128 entries laid end to end (three for the edge model, two for the node model), the
  product with a first weight matrix into a zero accumulator, adds a bias row, takes the maximum with zero, forms
  the product with a second weight matrix into a zero accumulator, and adds a second bias row. On the extended reals
  a change of format is the identity and a product into a zero accumulator read at (p, q) is the sum over the
  contracted axis, so entry (p, q) of a body's result is the two-layer perceptron row of the specification at `q`,
  on the input rows `p`.
-/
import proofs.«110657_j25134148616718_1_alg».proof.Proof.Gen.KernelIdeal.Skeleton
import proofs.«110657_j25134148616718_1_alg».proof.Proof.Spec
import Idealize.ShloMosaic.Lib.ValueIdx
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

/-! ### The product `dot_S2000x384_S384x256_S2000x256_1_0_0_1_n_n` at an index -/

theorem lhs_dot_S2000x384_S384x256_S2000x256_1_0_0_1_n_n_0 (i : S2000x256.Idx) (q : dot_S2000x384_S384x256_S2000x256_1_0_0_1_n_n.contr.Idx) :
    (dot_S2000x384_S384x256_S2000x256_1_0_0_1_n_n.lhsIdx i q 0).val = (i 0).val := by
  unfold DotDims.lhsIdx
  rw [dif_neg (show ¬(0 : Fin S2000x384.rank) ∈ dot_S2000x384_S384x256_S2000x256_1_0_0_1_n_n.lhsBatch by decide), dif_pos (show (0 : Fin S2000x384.rank) ∈ dot_S2000x384_S384x256_S2000x256_1_0_0_1_n_n.lhsNonContracting by decide)]
  rfl
theorem lhs_dot_S2000x384_S384x256_S2000x256_1_0_0_1_n_n_1 (i : S2000x256.Idx) (q : dot_S2000x384_S384x256_S2000x256_1_0_0_1_n_n.contr.Idx) :
    (dot_S2000x384_S384x256_S2000x256_1_0_0_1_n_n.lhsIdx i q 1).val = (q ⟨0, by decide⟩).val :=
  dot_S2000x384_S384x256_S2000x256_1_0_0_1_n_n.lhsIdx_val_of_single rfl i q
theorem rhs_dot_S2000x384_S384x256_S2000x256_1_0_0_1_n_n_0 (i : S2000x256.Idx) (q : dot_S2000x384_S384x256_S2000x256_1_0_0_1_n_n.contr.Idx) :
    (dot_S2000x384_S384x256_S2000x256_1_0_0_1_n_n.rhsIdx i q 0).val = (q ⟨0, by decide⟩).val :=
  dot_S2000x384_S384x256_S2000x256_1_0_0_1_n_n.rhsIdx_val_of_single rfl i q
theorem rhs_dot_S2000x384_S384x256_S2000x256_1_0_0_1_n_n_1 (i : S2000x256.Idx) (q : dot_S2000x384_S384x256_S2000x256_1_0_0_1_n_n.contr.Idx) :
    (dot_S2000x384_S384x256_S2000x256_1_0_0_1_n_n.rhsIdx i q 1).val = (i 1).val := by
  unfold DotDims.rhsIdx
  rw [dif_neg (show ¬(1 : Fin S384x256.rank) ∈ dot_S2000x384_S384x256_S2000x256_1_0_0_1_n_n.rhsBatch by decide), dif_pos (show (1 : Fin S384x256.rank) ∈ dot_S2000x384_S384x256_S2000x256_1_0_0_1_n_n.rhsNonContracting by decide)]
  rfl

/-- Into a zero accumulator, entry (p, q) of the product is the sum over the contracted axis of the left operand's
    row `p` times the right operand's column `q`. -/
theorem matmul_w1e_apply (l : FVec Ideal S2000x384 .bf16) (r : FVec Ideal S384x256 .bf16) (p : Fin 2000) (q : Fin 256) :
    matmul (F := Ideal) dot_S2000x384_S384x256_S2000x256_1_0_0_1_n_n none l r (constant (F := Ideal) S2000x256 .f32 0x00000000#32) (ix2 p q)
      = ∑ k : Fin 384, l (ix2 p k) * r (ix2 k q) := by
  simp only [matmul]
  rw [Ideal.matmul_constant_zero_apply, ← Equiv.sum_comp (ValueIdx.contrEquiv1 dot_S2000x384_S384x256_S2000x256_1_0_0_1_n_n 384 rfl rfl).symm]
  refine Finset.sum_congr rfl fun k _ => ?_
  have hk := ValueIdx.contrEquiv1_symm_val dot_S2000x384_S384x256_S2000x256_1_0_0_1_n_n 384 rfl rfl k
  have el : dot_S2000x384_S384x256_S2000x256_1_0_0_1_n_n.lhsIdx (ix2 p q) ((ValueIdx.contrEquiv1 dot_S2000x384_S384x256_S2000x256_1_0_0_1_n_n 384 rfl rfl).symm k) = ix2 p k := funext fun a => Fin.ext (by
    match a with
    | ⟨0, _⟩ => exact lhs_dot_S2000x384_S384x256_S2000x256_1_0_0_1_n_n_0 _ _
    | ⟨1, _⟩ => exact (lhs_dot_S2000x384_S384x256_S2000x256_1_0_0_1_n_n_1 _ _).trans hk)
  have er : dot_S2000x384_S384x256_S2000x256_1_0_0_1_n_n.rhsIdx (ix2 p q) ((ValueIdx.contrEquiv1 dot_S2000x384_S384x256_S2000x256_1_0_0_1_n_n 384 rfl rfl).symm k) = ix2 k q := funext fun a => Fin.ext (by
    match a with
    | ⟨0, _⟩ => exact (rhs_dot_S2000x384_S384x256_S2000x256_1_0_0_1_n_n_0 _ _).trans hk
    | ⟨1, _⟩ => exact rhs_dot_S2000x384_S384x256_S2000x256_1_0_0_1_n_n_1 _ _)
  rw [el, er]

/-! ### The product `dot_S2000x256_S256x128_S2000x128_1_0_0_1_n_n` at an index -/

theorem lhs_dot_S2000x256_S256x128_S2000x128_1_0_0_1_n_n_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_dot_S2000x256_S256x128_S2000x128_1_0_0_1_n_n_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_dot_S2000x256_S256x128_S2000x128_1_0_0_1_n_n_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_dot_S2000x256_S256x128_S2000x128_1_0_0_1_n_n_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- Into a zero accumulator, entry (p, q) of the product is the sum over the contracted axis of the left operand's
    row `p` times the right operand's column `q`. -/
theorem matmul_w2_apply (l : FVec Ideal S2000x256 .bf16) (r : FVec Ideal S256x128 .bf16) (p : Fin 2000) (q : Fin 128) :
    matmul (F := Ideal) dot_S2000x256_S256x128_S2000x128_1_0_0_1_n_n none l r (constant (F := Ideal) S2000x128 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 p q) ((ValueIdx.contrEquiv1 dot_S2000x256_S256x128_S2000x128_1_0_0_1_n_n 256 rfl rfl).symm k) = ix2 p k := funext fun a => Fin.ext (by
    match a with
    | ⟨0, _⟩ => exact lhs_dot_S2000x256_S256x128_S2000x128_1_0_0_1_n_n_0 _ _
    | ⟨1, _⟩ => exact (lhs_dot_S2000x256_S256x128_S2000x128_1_0_0_1_n_n_1 _ _).trans hk)
  have er : dot_S2000x256_S256x128_S2000x128_1_0_0_1_n_n.rhsIdx (ix2 p q) ((ValueIdx.contrEquiv1 dot_S2000x256_S256x128_S2000x128_1_0_0_1_n_n 256 rfl rfl).symm k) = ix2 k q := funext fun a => Fin.ext (by
    match a with
    | ⟨0, _⟩ => exact (rhs_dot_S2000x256_S256x128_S2000x128_1_0_0_1_n_n_0 _ _).trans hk
    | ⟨1, _⟩ => exact rhs_dot_S2000x256_S256x128_S2000x128_1_0_0_1_n_n_1 _ _)
  rw [el, er]

/-! ### The product `dot_S2000x256_S256x256_S2000x256_1_0_0_1_n_n` at an index -/

theorem lhs_dot_S2000x256_S256x256_S2000x256_1_0_0_1_n_n_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs_dot_S2000x256_S256x256_S2000x256_1_0_0_1_n_n_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem rhs_dot_S2000x256_S256x256_S2000x256_1_0_0_1_n_n_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem rhs_dot_S2000x256_S256x256_S2000x256_1_0_0_1_n_n_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Into a zero accumulator, entry (p, q) of the product is the sum over the contracted axis of the left operand's
    row `p` times the right operand's column `q`. -/
theorem matmul_w1n_apply (l : FVec Ideal S2000x256 .bf16) (r : FVec Ideal S256x256 .bf16) (p : Fin 2000) (q : Fin 256) :
    matmul (F := Ideal) dot_S2000x256_S256x256_S2000x256_1_0_0_1_n_n none l r (constant (F := Ideal) S2000x256 .f32 0x00000000#32) (ix2 p q)
      = ∑ k : Fin 256, l (ix2 p k) * r (ix2 k q) := by
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k := funext fun a => Fin.ext (by
    match a with
    | ⟨0, _⟩ => exact lhs_dot_S2000x256_S256x256_S2000x256_1_0_0_1_n_n_0 _ _
    | ⟨1, _⟩ => exact (lhs_dot_S2000x256_S256x256_S2000x256_1_0_0_1_n_n_1 _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q := funext fun a => Fin.ext (by
    match a with
    | ⟨0, _⟩ => exact (rhs_dot_S2000x256_S256x256_S2000x256_1_0_0_1_n_n_0 _ _).trans hk
    | ⟨1, _⟩ => exact rhs_dot_S2000x256_S256x256_S2000x256_1_0_0_1_n_n_1 _ _)
  rw [el, er]

/-! ### The bias rows and the two bodies -/

/-- A [1, 256] row broadcast down 2000 rows, read at (p, k), is the row at (0, k). -/
theorem bias256_apply (b : FVec Ideal S1x256 .f32) (p : Fin 2000) (k : Fin 256) :
    broadcastTo S2000x256 (shapeCast S1x256 b shapeCasts_S1x256_S1x256) broadcasts_S1x256_S2000x256 (ix2 p k) = b (ix2 0 k) := by
  rw [shapeCast_self]
  exact broadcastTo_apply b broadcasts_S1x256_S2000x256 (ix2 p k) (ix2 0 k) (fun a => match a with
    | ⟨0, _⟩ => by show (0 : Nat) = if (1 : Nat) = 1 then 0 else _; rw [if_pos rfl]
    | ⟨1, _⟩ => by show k.val = if (256 : Nat) = 1 then 0 else _; rw [if_neg (by decide)]; rfl)

/-- The same for a [1, 128] row. -/
theorem bias128_apply (b : FVec Ideal S1x128 .f32) (p : Fin 2000) (k : Fin 128) :
    broadcastTo S2000x128 (shapeCast S1x128 b shapeCasts_S1x128_S1x128) broadcasts_S1x128_S2000x128 (ix2 p k) = b (ix2 0 k) := by
  rw [shapeCast_self]
  exact broadcastTo_apply b broadcasts_S1x128_S2000x128 (ix2 p k) (ix2 0 k) (fun a => match a with
    | ⟨0, _⟩ => by show (0 : Nat) = if (1 : Nat) = 1 then 0 else _; rw [if_pos rfl]
    | ⟨1, _⟩ => by show k.val = if (128 : Nat) = 1 then 0 else _; rw [if_neg (by decide)]; rfl)

/-- Entry (p, q) of the edge model's body is the perceptron row, at `q`, of the three input rows `p` laid end to end. -/
theorem pay_edge (x0 x1 x2 : FVec Ideal S2000x128 .f32) (x3 : FVec Ideal S384x256 .f32) (x4 : FVec Ideal S1x256 .f32)
    (x5 : FVec Ideal S256x128 .f32) (x6 : FVec Ideal S1x128 .f32) (p : Fin 2000) (q : Fin 128) :
    k0_pay1 (F := Ideal) x0 x1 x2 x3 x4 x5 x6 (ix2 p q)
      = Cert.Spec.mlpRow (Cert.Spec.cat3 (Cert.Spec.row x0 p) (Cert.Spec.row x1 p) (Cert.Spec.row x2 p)) x3
          (fun k => x4 (ix2 0 k)) x5 (fun j => x6 (ix2 0 j)) q := by
  unfold k0_pay1 Cert.Spec.mlpRow
  refine (addf_apply _ _ _).trans ?_
  refine congrArg₂ (· + ·) ?_ ?_
  · refine (matmul_w2_apply _ _ p q).trans ?_
    refine Finset.sum_congr rfl fun k _ => ?_
    refine congrArg₂ (· * ·) ?_ rfl
    refine (maximumf_apply _ _ _).trans ?_
    refine congrArg₂ max ?_ rfl
    refine (addf_apply _ _ _).trans ?_
    refine congrArg₂ (· + ·) ?_ ?_
    · refine (matmul_w1e_apply _ _ p k).trans ?_
      refine Finset.sum_congr rfl fun l _ => ?_
      refine congrArg₂ (· * ·) ?_ rfl
      refine (Cert.Spec.concat3_apply 2000 _ _ _ _ p l).trans ?_
      rw [shapeCast_self, shapeCast_self]
      rfl
    · exact bias256_apply x4 p k
  · exact bias128_apply x6 p q

/-- Entry (p, q) of the node model's body is the perceptron row, at `q`, of the two input rows `p` laid end to end. -/
theorem pay_node (x0 x1 : FVec Ideal S2000x128 .f32) (x2 : FVec Ideal S256x256 .f32) (x3 : FVec Ideal S1x256 .f32)
    (x4 : FVec Ideal S256x128 .f32) (x5 : FVec Ideal S1x128 .f32) (p : Fin 2000) (q : Fin 128) :
    k1_pay1 (F := Ideal) x0 x1 x2 x3 x4 x5 (ix2 p q)
      = Cert.Spec.mlpRow (Cert.Spec.cat2 (Cert.Spec.row x0 p) (Cert.Spec.row x1 p)) x2
          (fun k => x3 (ix2 0 k)) x4 (fun j => x5 (ix2 0 j)) q := by
  unfold k1_pay1 Cert.Spec.mlpRow
  refine (addf_apply _ _ _).trans ?_
  refine congrArg₂ (· + ·) ?_ ?_
  · refine (matmul_w2_apply _ _ p q).trans ?_
    refine Finset.sum_congr rfl fun k _ => ?_
    refine congrArg₂ (· * ·) ?_ rfl
    refine (maximumf_apply _ _ _).trans ?_
    refine congrArg₂ max ?_ rfl
    refine (addf_apply _ _ _).trans ?_
    refine congrArg₂ (· + ·) ?_ ?_
    · refine (matmul_w1n_apply _ _ p k).trans ?_
      refine Finset.sum_congr rfl fun l _ => ?_
      refine congrArg₂ (· * ·) ?_ rfl
      refine (Cert.Spec.concat2_apply 2000 _ _ _ p l).trans ?_
      rw [shapeCast_self]
      rfl
    · exact bias256_apply x3 p k
  · exact bias128_apply x5 p q

end Cert.KernelIdeal.Pay

end
-- ==== Proof.KernelValue.lean ====
/-
  What the kernel program's two result arrays hold after the run, as functions of the arguments, on the extended
  reals.

  The program is two gridded regions among host operations. Region 0 (the edge model) walks the 500000 edges in 250
  blocks of 2000 rows: at point `t` its three row inputs are rows `2000 t … 2000 t + 1999` of the gathered source
  features, the gathered destination features and the edge features; its weights and biases are whole arrays at every
  point. The body's arithmetic at entry (p, q) of the block is the two-layer perceptron row of row `p` of the block,
  which is row `2000 t + p` of the arrays: so what point `t` writes back is block `t` of ONE whole-array function,
  the blocks tile the result (row `r` lies in block `r / 2000`), and the result array ends holding that function.
  Region 1 (the node model) does the same over the 50000 nodes in 25 blocks, its second row input the edge results
  summed at their destination nodes by the host operations between the regions.

  Each region finds its arrays as the host operations before it left them: the gathers of the node features along
  the two rows of the edge index, the biases reshaped to one row, the summed messages; these are read back, operation
  by operation, to the arguments. The gather and the sum at destination nodes are never opened: the reference applies
  the same operations to the same operands.
-/
import proofs.«110657_j25134148616718_1_alg».proof.Proof.Gen.KernelIdeal.Frame
import proofs.«110657_j25134148616718_1_alg».proof.Proof.Spec
import proofs.«110657_j25134148616718_1_alg».proof.Proof.KernelPay
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Pay
open Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

section Region
variable (V : (c : Dev nD) → (b : Ref sig .tc) → Buf (Elt Ideal) ((c : Thread nD τ).loc b))

/-! ## Region 0: the edge model -/

theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

abbrev xr0 (c : Dev nD) : FVec Ideal S500000x128 .f32 := V c main_v10
abbrev xc0 (c : Dev nD) : FVec Ideal S500000x128 .f32 := V c main_v17
abbrev ea0 (c : Dev nD) : FVec Ideal S500000x128 .f32 := V c main_arg2
abbrev w10 (c : Dev nD) : FVec Ideal S384x256 .f32 := V c main_arg3
abbrev b10 (c : Dev nD) : FVec Ideal S1x256 .f32 := V c main_v18
abbrev w20 (c : Dev nD) : FVec Ideal S256x128 .f32 := V c main_arg5
abbrev b20 (c : Dev nD) : FVec Ideal S1x128 .f32 := V c main_v19

abbrev bk0 (c : Dev nD) (t : Fin cfg0.N) : FVec Ideal S2000x128 .f32 := iblk0 V c 0 t
abbrev bk1 (c : Dev nD) (t : Fin cfg0.N) : FVec Ideal S2000x128 .f32 := iblk0 V c 1 t
abbrev bk2 (c : Dev nD) (t : Fin cfg0.N) : FVec Ideal S2000x128 .f32 := iblk0 V c 2 t
abbrev bk3 (c : Dev nD) (t : Fin cfg0.N) : FVec Ideal S384x256 .f32 := iblk0 V c 3 t
abbrev bk4 (c : Dev nD) (t : Fin cfg0.N) : FVec Ideal S1x256 .f32 := iblk0 V c 4 t
abbrev bk5 (c : Dev nD) (t : Fin cfg0.N) : FVec Ideal S256x128 .f32 := iblk0 V c 5 t
abbrev bk6 (c : Dev nD) (t : Fin cfg0.N) : FVec Ideal S1x128 .f32 := iblk0 V c 6 t

/-! Each input block read back to its array: a row block is rows `2000 t …` of its array; a weight or bias block is the whole array. -/

theorem bk0_row (c : Dev nD) (t : Fin cfg0.N) (p : Fin 2000) (P : Fin 500000) (hP : P.val = 2000 * t.val + p.val) :
    Cert.Spec.row (bk0 V c t) p = Cert.Spec.row (xr0 V c) P := by
  have e := idx0 t
  funext k
  show iblk0 V c 0 t (ix2 p k) = V c main_v10 (ix2 P k)
  unfold iblk0
  rw [View.read_apply]
  show V c main_v10 _ = V c main_v10 _
  refine congrArg _ ?_
  funext a
  apply Fin.ext
  match a with
  | ⟨0, _⟩ => show win0_0.index t 0 * 2000 + 1 * p.val = P.val; rw [hP]; omega
  | ⟨1, _⟩ => show win0_0.index t 1 * 128 + 1 * k.val = k.val; omega

theorem bk1_row (c : Dev nD) (t : Fin cfg0.N) (p : Fin 2000) (P : Fin 500000) (hP : P.val = 2000 * t.val + p.val) :
    Cert.Spec.row (bk1 V c t) p = Cert.Spec.row (xc0 V c) P := by
  have e := idx0 t
  funext k
  show iblk0 V c 1 t (ix2 p k) = V c main_v17 (ix2 P k)
  unfold iblk0
  rw [View.read_apply]
  show V c main_v17 _ = V c main_v17 _
  refine congrArg _ ?_
  funext a
  apply Fin.ext
  match a with
  | ⟨0, _⟩ => show win0_1.index t 0 * 2000 + 1 * p.val = P.val; rw [hP]; omega
  | ⟨1, _⟩ => show win0_1.index t 1 * 128 + 1 * k.val = k.val; omega

theorem bk2_row (c : Dev nD) (t : Fin cfg0.N) (p : Fin 2000) (P : Fin 500000) (hP : P.val = 2000 * t.val + p.val) :
    Cert.Spec.row (bk2 V c t) p = Cert.Spec.row (ea0 V c) P := by
  have e := idx0 t
  funext k
  show iblk0 V c 2 t (ix2 p k) = V c main_arg2 (ix2 P k)
  unfold iblk0
  rw [View.read_apply]
  show V c main_arg2 _ = V c main_arg2 _
  refine congrArg _ ?_
  funext a
  apply Fin.ext
  match a with
  | ⟨0, _⟩ => show win0_2.index t 0 * 2000 + 1 * p.val = P.val; rw [hP]; omega
  | ⟨1, _⟩ => show win0_2.index t 1 * 128 + 1 * k.val = k.val; omega

theorem bk3_eq (c : Dev nD) (t : Fin cfg0.N) : bk3 V c t = w10 V c := by
  have e := idx0 t
  funext y
  show iblk0 V c 3 t y = V c main_arg3 y
  unfold iblk0
  rw [View.read_apply]
  show V c main_arg3 _ = V c main_arg3 _
  refine congrArg _ ?_
  funext a
  apply Fin.ext
  match a with
  | ⟨0, _⟩ => show win0_3.index t 0 * 384 + 1 * (y 0).val = (y 0).val; omega
  | ⟨1, _⟩ => show win0_3.index t 1 * 256 + 1 * (y 1).val = (y 1).val; omega

theorem bk4_eq (c : Dev nD) (t : Fin cfg0.N) : bk4 V c t = b10 V c := by
  have e := idx0 t
  funext y
  show iblk0 V c 4 t y = V c main_v18 y
  unfold iblk0
  rw [View.read_apply]
  show V c main_v18 _ = V c main_v18 _
  refine congrArg _ ?_
  funext a
  apply Fin.ext
  match a with
  | ⟨0, _⟩ => show win0_4.index t 0 * 1 + 1 * (y 0).val = (y 0).val; omega
  | ⟨1, _⟩ => show win0_4.index t 1 * 256 + 1 * (y 1).val = (y 1).val; omega

theorem bk5_eq (c : Dev nD) (t : Fin cfg0.N) : bk5 V c t = w20 V c := by
  have e := idx0 t
  funext y
  show iblk0 V c 5 t y = V c main_arg5 y
  unfold iblk0
  rw [View.read_apply]
  show V c main_arg5 _ = V c main_arg5 _
  refine congrArg _ ?_
  funext a
  apply Fin.ext
  match a with
  | ⟨0, _⟩ => show win0_5.index t 0 * 256 + 1 * (y 0).val = (y 0).val; omega
  | ⟨1, _⟩ => show win0_5.index t 1 * 128 + 1 * (y 1).val = (y 1).val; omega

theorem bk6_eq (c : Dev nD) (t : Fin cfg0.N) : bk6 V c t = b20 V c := by
  have e := idx0 t
  funext y
  show iblk0 V c 6 t y = V c main_v19 y
  unfold iblk0
  rw [View.read_apply]
  show V c main_v19 _ = V c main_v19 _
  refine congrArg _ ?_
  funext a
  apply Fin.ext
  match a with
  | ⟨0, _⟩ => show win0_6.index t 0 * 1 + 1 * (y 0).val = (y 0).val; omega
  | ⟨1, _⟩ => show win0_6.index t 1 * 128 + 1 * (y 1).val = (y 1).val; omega

/-- The edge model's whole result, from the arrays as region 0 finds them. -/
abbrev edgeOf (c : Dev nD) : FVec Ideal S500000x128 .f32 :=
  Cert.Spec.mlpOn3 (xr0 V c) (xc0 V c) (ea0 V c) (w10 V c) (fun k => b10 V c (ix2 0 k)) (w20 V c) (fun j => b20 V c (ix2 0 j))

/-- What point `t` writes back is block `t` of the edge model's whole result. -/
theorem flushed_edge (c : Dev nD) (t : Fin cfg0.N) :
    (dat0 V c).flushed 7 t = ((cfg0.win 7).blk t).view.read (Elt Ideal) (edgeOf V c) := by
  show (cfg0.win 7).cut (grid0.coords t) ((dat0 V c).after 7 t) = _
  rw [after0_7]
  unfold out0_7
  rw [View.canon_unit_zero hz]
  simp only [View.ld_unit_zero (S := S2000x128) hz, View.ld_unit_zero (S := S384x256) hz, View.ld_unit_zero (S := S1x256) hz,
    View.ld_unit_zero (S := S256x128) hz, View.ld_unit_zero (S := S1x128) hz]
  funext y
  obtain ⟨p, q, rfl⟩ : ∃ (p : Fin 2000) (q : Fin 128), y = ix2 p q := ⟨y 0, y 1, eq_ix2 y⟩
  have e := idx0 t
  have ht : t.val < 250 := lt_of_lt_of_eq t.isLt N_0
  have hlt : 2000 * t.val + p.val < 500000 := by have := p.isLt; omega
  have he : ((cfg0.win 7).blk t).view.emb (ix2 p q) = ix2 (⟨2000 * t.val + p.val, hlt⟩ : Fin 500000) q := by
    funext a
    apply Fin.ext
    match a with
    | ⟨0, _⟩ => show win0_7.index t 0 * 2000 + 1 * p.val = 2000 * t.val + p.val; omega
    | ⟨1, _⟩ => show win0_7.index t 1 * 128 + 1 * q.val = q.val; omega
  show k0_pay1 (F := Ideal) (bk0 V c t) (bk1 V c t) (bk2 V c t) (bk3 V c t) (bk4 V c t) (bk5 V c t) (bk6 V c t) (ix2 p q)
    = edgeOf V c (((cfg0.win 7).blk t).view.emb (ix2 p q))
  rw [he, pay_edge]
  show _ = Cert.Spec.mlpRow (Cert.Spec.cat3 (Cert.Spec.row (xr0 V c) ⟨2000 * t.val + p.val, hlt⟩) (Cert.Spec.row (xc0 V c) ⟨2000 * t.val + p.val, hlt⟩) (Cert.Spec.row (ea0 V c) ⟨2000 * t.val + p.val, hlt⟩))
    (w10 V c) (fun k => b10 V c (ix2 0 k)) (w20 V c) (fun j => b20 V c (ix2 0 j)) q
  rw [bk0_row V c t p ⟨_, hlt⟩ rfl, bk1_row V c t p ⟨_, hlt⟩ rfl, bk2_row V c t p ⟨_, hlt⟩ rfl, bk3_eq V c t, bk4_eq V c t, bk5_eq V c t, bk6_eq V c t]

/-- Every index of the edge result lies in some point's block: row `r` in the block of point `r / 2000`. -/
theorem cover_edge (i : S500000x128.Idx) :
    ∃ t : Fin cfg0.N, (cfg0.win 7).flush t = true ∧ i ∈ ((cfg0.win 7).blk t).view.set := by
  have h0 : (i 0).val < 500000 := (i 0).isLt
  have h1 : (i 1).val < 128 := (i 1).isLt
  have hN : cfg0.N = 250 := N_0
  let t : Fin cfg0.N := ⟨(i 0).val / 2000, by rw [hN]; omega⟩
  have e := idx0 t
  have htv : t.val = (i 0).val / 2000 := rfl
  refine ⟨t, flush0_7 t, ?_⟩
  show i ∈ ((View.whole main_v22).slice (win0_7.rect t)).set
  rw [View.set_slice_whole, Rect.mem_set_unit]
  intro a
  match a with
  | ⟨0, _⟩ => show win0_7.index t 0 * 2000 ≤ (i 0).val ∧ (i 0).val < win0_7.index t 0 * 2000 + 2000; omega
  | ⟨1, _⟩ => show win0_7.index t 1 * 128 ≤ (i 1).val ∧ (i 1).val < win0_7.index t 1 * 128 + 128; omega

/-- After region 0 its result array holds the edge model's whole result. -/
theorem final_edge (c : Dev nD) : (dat0 V c).arrAt 7 cfg0.N = edgeOf V c :=
  (dat0 V c).arrAt_eq_of_cover 7 (edgeOf V c) (fun t _ => flushed_edge V c t) cover_edge

/-! ## Region 1: the node model -/

theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

abbrev xn1 (c : Dev nD) : FVec Ideal S50000x128 .f32 := V c main_arg0
abbrev ag1 (c : Dev nD) : FVec Ideal S50000x128 .f32 := V c main_v25
abbrev w11 (c : Dev nD) : FVec Ideal S256x256 .f32 := V c main_arg7
abbrev b11 (c : Dev nD) : FVec Ideal S1x256 .f32 := V c main_v20
abbrev w21 (c : Dev nD) : FVec Ideal S256x128 .f32 := V c main_arg9
abbrev b21 (c : Dev nD) : FVec Ideal S1x128 .f32 := V c main_v21

abbrev nk0 (c : Dev nD) (t : Fin cfg1.N) : FVec Ideal S2000x128 .f32 := iblk1 V c 0 t
abbrev nk1 (c : Dev nD) (t : Fin cfg1.N) : FVec Ideal S2000x128 .f32 := iblk1 V c 1 t
abbrev nk2 (c : Dev nD) (t : Fin cfg1.N) : FVec Ideal S256x256 .f32 := iblk1 V c 2 t
abbrev nk3 (c : Dev nD) (t : Fin cfg1.N) : FVec Ideal S1x256 .f32 := iblk1 V c 3 t
abbrev nk4 (c : Dev nD) (t : Fin cfg1.N) : FVec Ideal S256x128 .f32 := iblk1 V c 4 t
abbrev nk5 (c : Dev nD) (t : Fin cfg1.N) : FVec Ideal S1x128 .f32 := iblk1 V c 5 t

theorem nk0_row (c : Dev nD) (t : Fin cfg1.N) (p : Fin 2000) (P : Fin 50000) (hP : P.val = 2000 * t.val + p.val) :
    Cert.Spec.row (nk0 V c t) p = Cert.Spec.row (xn1 V c) P := by
  have e := idx1 t
  funext k
  show iblk1 V c 0 t (ix2 p k) = V c main_arg0 (ix2 P k)
  unfold iblk1
  rw [View.read_apply]
  show V c main_arg0 _ = V c main_arg0 _
  refine congrArg _ ?_
  funext a
  apply Fin.ext
  match a with
  | ⟨0, _⟩ => show win1_0.index t 0 * 2000 + 1 * p.val = P.val; rw [hP]; omega
  | ⟨1, _⟩ => show win1_0.index t 1 * 128 + 1 * k.val = k.val; omega

theorem nk1_row (c : Dev nD) (t : Fin cfg1.N) (p : Fin 2000) (P : Fin 50000) (hP : P.val = 2000 * t.val + p.val) :
    Cert.Spec.row (nk1 V c t) p = Cert.Spec.row (ag1 V c) P := by
  have e := idx1 t
  funext k
  show iblk1 V c 1 t (ix2 p k) = V c main_v25 (ix2 P k)
  unfold iblk1
  rw [View.read_apply]
  show V c main_v25 _ = V c main_v25 _
  refine congrArg _ ?_
  funext a
  apply Fin.ext
  match a with
  | ⟨0, _⟩ => show win1_1.index t 0 * 2000 + 1 * p.val = P.val; rw [hP]; omega
  | ⟨1, _⟩ => show win1_1.index t 1 * 128 + 1 * k.val = k.val; omega

theorem nk2_eq (c : Dev nD) (t : Fin cfg1.N) : nk2 V c t = w11 V c := by
  have e := idx1 t
  funext y
  show iblk1 V c 2 t y = V c main_arg7 y
  unfold iblk1
  rw [View.read_apply]
  show V c main_arg7 _ = V c main_arg7 _
  refine congrArg _ ?_
  funext a
  apply Fin.ext
  match a with
  | ⟨0, _⟩ => show win1_2.index t 0 * 256 + 1 * (y 0).val = (y 0).val; omega
  | ⟨1, _⟩ => show win1_2.index t 1 * 256 + 1 * (y 1).val = (y 1).val; omega

theorem nk3_eq (c : Dev nD) (t : Fin cfg1.N) : nk3 V c t = b11 V c := by
  have e := idx1 t
  funext y
  show iblk1 V c 3 t y = V c main_v20 y
  unfold iblk1
  rw [View.read_apply]
  show V c main_v20 _ = V c main_v20 _
  refine congrArg _ ?_
  funext a
  apply Fin.ext
  match a with
  | ⟨0, _⟩ => show win1_3.index t 0 * 1 + 1 * (y 0).val = (y 0).val; omega
  | ⟨1, _⟩ => show win1_3.index t 1 * 256 + 1 * (y 1).val = (y 1).val; omega

theorem nk4_eq (c : Dev nD) (t : Fin cfg1.N) : nk4 V c t = w21 V c := by
  have e := idx1 t
  funext y
  show iblk1 V c 4 t y = V c main_arg9 y
  unfold iblk1
  rw [View.read_apply]
  show V c main_arg9 _ = V c main_arg9 _
  refine congrArg _ ?_
  funext a
  apply Fin.ext
  match a with
  | ⟨0, _⟩ => show win1_4.index t 0 * 256 + 1 * (y 0).val = (y 0).val; omega
  | ⟨1, _⟩ => show win1_4.index t 1 * 128 + 1 * (y 1).val = (y 1).val; omega

theorem nk5_eq (c : Dev nD) (t : Fin cfg1.N) : nk5 V c t = b21 V c := by
  have e := idx1 t
  funext y
  show iblk1 V c 5 t y = V c main_v21 y
  unfold iblk1
  rw [View.read_apply]
  show V c main_v21 _ = V c main_v21 _
  refine congrArg _ ?_
  funext a
  apply Fin.ext
  match a with
  | ⟨0, _⟩ => show win1_5.index t 0 * 1 + 1 * (y 0).val = (y 0).val; omega
  | ⟨1, _⟩ => show win1_5.index t 1 * 128 + 1 * (y 1).val = (y 1).val; omega

/-- The node model's whole result, from the arrays as region 1 finds them. -/
abbrev nodeOf (c : Dev nD) : FVec Ideal S50000x128 .f32 :=
  Cert.Spec.mlpOn2 (xn1 V c) (ag1 V c) (w11 V c) (fun k => b11 V c (ix2 0 k)) (w21 V c) (fun j => b21 V c (ix2 0 j))

/-- What point `t` writes back is block `t` of the node model's whole result. -/
theorem flushed_node (c : Dev nD) (t : Fin cfg1.N) :
    (dat1 V c).flushed 6 t = ((cfg1.win 6).blk t).view.read (Elt Ideal) (nodeOf V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S256x256) hz, View.ld_unit_zero (S := S1x256) hz,
    View.ld_unit_zero (S := S256x128) hz, View.ld_unit_zero (S := S1x128) hz]
  funext y
  obtain ⟨p, q, rfl⟩ : ∃ (p : Fin 2000) (q : Fin 128), y = ix2 p q := ⟨y 0, y 1, eq_ix2 y⟩
  have e := idx1 t
  have ht : t.val < 25 := lt_of_lt_of_eq t.isLt N_1
  have hlt : 2000 * t.val + p.val < 50000 := by have := p.isLt; omega
  have he : ((cfg1.win 6).blk t).view.emb (ix2 p q) = ix2 (⟨2000 * t.val + p.val, hlt⟩ : Fin 50000) q := by
    funext a
    apply Fin.ext
    match a with
    | ⟨0, _⟩ => show win1_6.index t 0 * 2000 + 1 * p.val = 2000 * t.val + p.val; omega
    | ⟨1, _⟩ => show win1_6.index t 1 * 128 + 1 * q.val = q.val; omega
  show k1_pay1 (F := Ideal) (nk0 V c t) (nk1 V c t) (nk2 V c t) (nk3 V c t) (nk4 V c t) (nk5 V c t) (ix2 p q)
    = nodeOf V c (((cfg1.win 6).blk t).view.emb (ix2 p q))
  rw [he, pay_node]
  show _ = Cert.Spec.mlpRow (Cert.Spec.cat2 (Cert.Spec.row (xn1 V c) ⟨2000 * t.val + p.val, hlt⟩) (Cert.Spec.row (ag1 V c) ⟨2000 * t.val + p.val, hlt⟩))
    (w11 V c) (fun k => b11 V c (ix2 0 k)) (w21 V c) (fun j => b21 V c (ix2 0 j)) q
  rw [nk0_row V c t p ⟨_, hlt⟩ rfl, nk1_row V c t p ⟨_, hlt⟩ rfl, nk2_eq V c t, nk3_eq V c t, nk4_eq V c t, nk5_eq V c t]

/-- Every index of the node result lies in some point's block: row `r` in the block of point `r / 2000`. -/
theorem cover_node (i : S50000x128.Idx) :
    ∃ t : Fin cfg1.N, (cfg1.win 6).flush t = true ∧ i ∈ ((cfg1.win 6).blk t).view.set := by
  have h0 : (i 0).val < 50000 := (i 0).isLt
  have h1 : (i 1).val < 128 := (i 1).isLt
  have hN : cfg1.N = 25 := N_1
  let t : Fin cfg1.N := ⟨(i 0).val / 2000, by rw [hN]; omega⟩
  have e := idx1 t
  have htv : t.val = (i 0).val / 2000 := rfl
  refine ⟨t, flush1_6 t, ?_⟩
  show i ∈ ((View.whole main_v26).slice (win1_6.rect t)).set
  rw [View.set_slice_whole, Rect.mem_set_unit]
  intro a
  match a with
  | ⟨0, _⟩ => show win1_6.index t 0 * 2000 ≤ (i 0).val ∧ (i 0).val < win1_6.index t 0 * 2000 + 2000; omega
  | ⟨1, _⟩ => show win1_6.index t 1 * 128 ≤ (i 1).val ∧ (i 1).val < win1_6.index t 1 * 128 + 128; omega

/-- After region 1 its result array holds the node model's whole result. -/
theorem final_node (c : Dev nD) : (dat1 V c).arrAt 6 cfg1.N = nodeOf V c :=
  (dat1 V c).arrAt_eq_of_cover 6 (nodeOf V c) (fun t _ => flushed_node V c t) cover_node

end Region

/-! ## The run: each region's entry arrays read back to the arguments -/

section Run
variable (m : (ℓ : Loc nD τ sig) → Buf (Elt Ideal) ℓ) (ρ : Dev nD → PrngReg)

/-- The source node of every edge: row 0 of the edge index. -/
def ends0 (e : (⟨S2x500000, .i32⟩ : BufTy).Contents (Elt Ideal)) : (⟨S500000, .i32⟩ : BufTy).Contents (Elt Ideal) :=
  shapeCast _ (extractStridedSlice S1x500000 ![0, 0] e slices_S2x500000_S1x500000_0_0) shapeCasts_S1x500000_S500000
/-- The destination node of every edge: row 1 of the edge index. -/
def ends1 (e : (⟨S2x500000, .i32⟩ : BufTy).Contents (Elt Ideal)) : (⟨S500000, .i32⟩ : BufTy).Contents (Elt Ideal) :=
  shapeCast _ (extractStridedSlice S1x500000 ![1, 0] e slices_S2x500000_S1x500000_1_0) shapeCasts_S1x500000_S500000
/-- Node numbers as a column of gather indices, a negative one counted from the end. -/
def gatherIdx (r : (⟨S500000, .i32⟩ : BufTy).Contents (Elt Ideal)) : (⟨S500000x1, .i32⟩ : BufTy).Contents (Elt Ideal) :=
  broadcastInDim S500000x1 ![0] bcast_S500000_S500000x1_0
    (select (cmpi .slt r (broadcastInDim S500000 ![] bcast_S_S500000 (constantI S_ 32 0#32)))
      (addi r (broadcastInDim S500000 ![] bcast_S_S500000 (constantI S_ 32 50000#32))) r)
/-- The node features gathered along a vector of node numbers: one row per edge. -/
def gathered (x : (⟨S50000x128, .f32⟩ : BufTy).Contents (Elt Ideal)) (r : (⟨S500000, .i32⟩ : BufTy).Contents (Elt Ideal)) :
    (⟨S500000x128, .f32⟩ : BufTy).Contents (Elt Ideal) :=
  Host.gather gather_S50000x128_S500000x1_S500000x128_1_0_n_n_0_1_1128 x (gatherIdx r)
/-- The edge rows summed at the node each is sent to, from a zero array. -/
def summedAt (r : (⟨S500000, .i32⟩ : BufTy).Contents (Elt Ideal)) (u : (⟨S500000x128, .f32⟩ : BufTy).Contents (Elt Ideal)) :
    (⟨S50000x128, .f32⟩ : BufTy).Contents (Elt Ideal) :=
  Host.scatterAdd scatter_S50000x128_S500000x1_S500000x128_1_0_0_1
    (broadcastInDim S50000x128 ![] bcast_S_S50000x128 (constant (F := Ideal) S_ .f32 0x00000000#32))
    (broadcastInDim S500000x1 ![0] bcast_S500000_S500000x1_0 r) u

abbrev aX (c : Dev nD) : (⟨S50000x128, .f32⟩ : BufTy).Contents (Elt Ideal) := m ((c : Thread nD τ).loc main_arg0)
abbrev aE (c : Dev nD) : (⟨S2x500000, .i32⟩ : BufTy).Contents (Elt Ideal) := m ((c : Thread nD τ).loc main_arg1)
abbrev aA (c : Dev nD) : (⟨S500000x128, .f32⟩ : BufTy).Contents (Elt Ideal) := m ((c : Thread nD τ).loc main_arg2)
abbrev aW1 (c : Dev nD) : (⟨S384x256, .f32⟩ : BufTy).Contents (Elt Ideal) := m ((c : Thread nD τ).loc main_arg3)
abbrev aB1 (c : Dev nD) : (⟨S256, .f32⟩ : BufTy).Contents (Elt Ideal) := m ((c : Thread nD τ).loc main_arg4)
abbrev aW2 (c : Dev nD) : (⟨S256x128, .f32⟩ : BufTy).Contents (Elt Ideal) := m ((c : Thread nD τ).loc main_arg5)
abbrev aB2 (c : Dev nD) : (⟨S128, .f32⟩ : BufTy).Contents (Elt Ideal) := m ((c : Thread nD τ).loc main_arg6)
abbrev aV1 (c : Dev nD) : (⟨S256x256, .f32⟩ : BufTy).Contents (Elt Ideal) := m ((c : Thread nD τ).loc main_arg7)
abbrev aC1 (c : Dev nD) : (⟨S256, .f32⟩ : BufTy).Contents (Elt Ideal) := m ((c : Thread nD τ).loc main_arg8)
abbrev aV2 (c : Dev nD) : (⟨S256x128, .f32⟩ : BufTy).Contents (Elt Ideal) := m ((c : Thread nD τ).loc main_arg9)
abbrev aC2 (c : Dev nD) : (⟨S128, .f32⟩ : BufTy).Contents (Elt Ideal) := m ((c : Thread nD τ).loc main_arg10)

/-- A bias vector reshaped to one row, read in that row. -/
theorem row_of_vec256 (b : (⟨S256, .f32⟩ : BufTy).Contents (Elt Ideal)) (k : Fin 256) :
    (shapeCast S1x256 b shapeCasts_S256_S1x256 : FVec Ideal S1x256 .f32) (ix2 0 k) = b (ix1 k) :=
  shapeCast_apply b shapeCasts_S256_S1x256 (ix2 0 k) (ix1 k)
    (by rewrite [Shape.rowMajor_val_two, Shape.rowMajor_val_one]; show k.val = 0 * 256 + k.val; omega)
theorem row_of_vec128 (b : (⟨S128, .f32⟩ : BufTy).Contents (Elt Ideal)) (k : Fin 128) :
    (shapeCast S1x128 b shapeCasts_S128_S1x128 : FVec Ideal S1x128 .f32) (ix2 0 k) = b (ix1 k) :=
  shapeCast_apply b shapeCasts_S128_S1x128 (ix2 0 k) (ix1 k)
    (by rewrite [Shape.rowMajor_val_two, Shape.rowMajor_val_one]; show k.val = 0 * 128 + k.val; omega)

/-! ### Region 0's entry: after the first stretch of host operations -/

theorem V1_v10 (c : Dev nD) : xr0 (V1 m ρ) c = gathered (aX m c) (ends0 (aE m c)) := by
  show StableHlo.after hostOps0 (W0 m ρ c) (Proc.devRef .tc main_v10) = _
  after_results
  rfl
theorem V1_v17 (c : Dev nD) : xc0 (V1 m ρ) c = gathered (aX m c) (ends1 (aE m c)) := by
  show StableHlo.after hostOps0 (W0 m ρ c) (Proc.devRef .tc main_v17) = _
  after_results
  rfl
theorem V1_arg2 (c : Dev nD) : ea0 (V1 m ρ) c = aA m c := by
  show StableHlo.after hostOps0 (W0 m ρ c) (Proc.devRef .tc main_arg2) = _
  after_results
theorem V1_arg3 (c : Dev nD) : w10 (V1 m ρ) c = aW1 m c := by
  show StableHlo.after hostOps0 (W0 m ρ c) (Proc.devRef .tc main_arg3) = _
  after_results
theorem V1_v18 (c : Dev nD) : b10 (V1 m ρ) c = shapeCast S1x256 (aB1 m c) shapeCasts_S256_S1x256 := by
  show StableHlo.after hostOps0 (W0 m ρ c) (Proc.devRef .tc main_v18) = _
  after_results
  rfl
theorem V1_arg5 (c : Dev nD) : w20 (V1 m ρ) c = aW2 m c := by
  show StableHlo.after hostOps0 (W0 m ρ c) (Proc.devRef .tc main_arg5) = _
  after_results
theorem V1_v19 (c : Dev nD) : b20 (V1 m ρ) c = shapeCast S1x128 (aB2 m c) shapeCasts_S128_S1x128 := by
  show StableHlo.after hostOps0 (W0 m ρ c) (Proc.devRef .tc main_v19) = _
  after_results
  rfl

/-- The edge model's result as a function of the arguments: the perceptron rows of the gathered source and
    destination features and the edge features. -/
def edgeRes (x : (⟨S50000x128, .f32⟩ : BufTy).Contents (Elt Ideal)) (e : (⟨S2x500000, .i32⟩ : BufTy).Contents (Elt Ideal))
    (a : (⟨S500000x128, .f32⟩ : BufTy).Contents (Elt Ideal)) (w1 : (⟨S384x256, .f32⟩ : BufTy).Contents (Elt Ideal))
    (b1 : (⟨S256, .f32⟩ : BufTy).Contents (Elt Ideal)) (w2 : (⟨S256x128, .f32⟩ : BufTy).Contents (Elt Ideal))
    (b2 : (⟨S128, .f32⟩ : BufTy).Contents (Elt Ideal)) : (⟨S500000x128, .f32⟩ : BufTy).Contents (Elt Ideal) :=
  Cert.Spec.mlpOn3 (gathered x (ends0 e)) (gathered x (ends1 e)) a w1 (fun k => b1 (ix1 k)) w2 (fun j => b2 (ix1 j))

/-- The node model's result as a function of the arguments: the perceptron rows of the node features and the edge
    results summed at their destination nodes. -/
def nodeRes (x : (⟨S50000x128, .f32⟩ : BufTy).Contents (Elt Ideal)) (e : (⟨S2x500000, .i32⟩ : BufTy).Contents (Elt Ideal))
    (u : (⟨S500000x128, .f32⟩ : BufTy).Contents (Elt Ideal)) (v1 : (⟨S256x256, .f32⟩ : BufTy).Contents (Elt Ideal))
    (c1 : (⟨S256, .f32⟩ : BufTy).Contents (Elt Ideal)) (v2 : (⟨S256x128, .f32⟩ : BufTy).Contents (Elt Ideal))
    (c2 : (⟨S128, .f32⟩ : BufTy).Contents (Elt Ideal)) : (⟨S50000x128, .f32⟩ : BufTy).Contents (Elt Ideal) :=
  Cert.Spec.mlpOn2 x (summedAt (ends1 e) u) v1 (fun k => c1 (ix1 k)) v2 (fun j => c2 (ix1 j))

abbrev edgeArr (c : Dev nD) : (⟨S500000x128, .f32⟩ : BufTy).Contents (Elt Ideal) :=
  edgeRes (aX m c) (aE m c) (aA m c) (aW1 m c) (aB1 m c) (aW2 m c) (aB2 m c)
abbrev nodeArr (c : Dev nD) : (⟨S50000x128, .f32⟩ : BufTy).Contents (Elt Ideal) :=
  nodeRes (aX m c) (aE m c) (edgeArr m c) (aV1 m c) (aC1 m c) (aV2 m c) (aC2 m c)

/-- At region 0's exit its result array holds the edge model's result of the arguments. -/
theorem W2_v22 (c : Dev nD) : W2 m ρ c (Proc.devRef .tc main_v22) = edgeArr m c := by
  refine (W2_arr m ρ c 7).trans ((final_edge (V1 m ρ) c).trans ?_)
  have hb1 : (fun k : Fin 256 => b10 (V1 m ρ) c (ix2 0 k)) = fun k => aB1 m c (ix1 k) :=
    funext fun k => by rw [V1_v18]; exact row_of_vec256 _ k
  have hb2 : (fun j : Fin 128 => b20 (V1 m ρ) c (ix2 0 j)) = fun j => aB2 m c (ix1 j) :=
    funext fun j => by rw [V1_v19]; exact row_of_vec128 _ j
  show Cert.Spec.mlpOn3 (xr0 (V1 m ρ) c) (xc0 (V1 m ρ) c) (ea0 (V1 m ρ) c) (w10 (V1 m ρ) c) (fun k => b10 (V1 m ρ) c (ix2 0 k))
      (w20 (V1 m ρ) c) (fun j => b20 (V1 m ρ) c (ix2 0 j)) = edgeRes _ _ _ _ _ _ _
  rw [hb1, hb2, V1_v10, V1_v17, V1_arg2, V1_arg3, V1_arg5]
  rfl

/-! ### Region 1's entry: after the second stretch of host operations -/

/-- The destination nodes as the second stretch finds them: region 0 does not write that buffer. -/
theorem W2_v3 (c : Dev nD) : (W2 m ρ c (Proc.devRef .tc main_v3) : (⟨S500000, .i32⟩ : BufTy).Contents (Elt Ideal)) = ends1 (aE m c) := by
  rw [W2_of_ne m ρ c main_v3 (by decide)]
  show StableHlo.after hostOps0 (W0 m ρ c) (Proc.devRef .tc main_v3) = _
  after_results
  rfl

theorem V3_v25 (c : Dev nD) : ag1 (V3 m ρ) c = summedAt (ends1 (aE m c)) (edgeArr m c) := by
  show StableHlo.after hostOps1 (W2 m ρ c) (Proc.devRef .tc main_v25) = _
  after_results
  rw [W2_v3, W2_v22]
  rfl
theorem V3_arg0 (c : Dev nD) : xn1 (V3 m ρ) c = aX m c := by
  show StableHlo.after hostOps1 (W2 m ρ c) (Proc.devRef .tc main_arg0) = _
  after_results
  rw [W2_of_ne m ρ c main_arg0 (by decide)]
  show StableHlo.after hostOps0 (W0 m ρ c) (Proc.devRef .tc main_arg0) = _
  after_results
theorem V3_arg7 (c : Dev nD) : w11 (V3 m ρ) c = aV1 m c := by
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results
theorem V3_arg9 (c : Dev nD) : w21 (V3 m ρ) c = aV2 m c := by
  show StableHlo.after hostOps1 (W2 m ρ c) (Proc.devRef .tc main_arg9) = _
  after_results
  rw [W2_of_ne m ρ c main_arg9 (by decide)]
  show StableHlo.after hostOps0 (W0 m ρ c) (Proc.devRef .tc main_arg9) = _
  after_results
theorem V3_v20 (c : Dev nD) : b11 (V3 m ρ) c = shapeCast S1x256 (aC1 m c) shapeCasts_S256_S1x256 := by
  show StableHlo.after hostOps1 (W2 m ρ c) (Proc.devRef .tc main_v20) = _
  after_results
  rw [W2_of_ne m ρ c main_v20 (by decide)]
  show StableHlo.after hostOps0 (W0 m ρ c) (Proc.devRef .tc main_v20) = _
  after_results
  rfl
theorem V3_v21 (c : Dev nD) : b21 (V3 m ρ) c = shapeCast S1x128 (aC2 m c) shapeCasts_S128_S1x128 := by
  show StableHlo.after hostOps1 (W2 m ρ c) (Proc.devRef .tc main_v21) = _
  after_results
  rw [W2_of_ne m ρ c main_v21 (by decide)]
  show StableHlo.after hostOps0 (W0 m ρ c) (Proc.devRef .tc main_v21) = _
  after_results
  rfl

/-! ### The two results at the last segment boundary -/

/-- The node result: region 1's result array after its write-backs. -/
theorem W4_v26 (c : Dev nD) : W4 m ρ c (Proc.devRef .tc main_v26) = nodeArr m c := by
  refine (W4_arr m ρ c 6).trans ((final_node (V3 m ρ) c).trans ?_)
  have hb1 : (fun k : Fin 256 => b11 (V3 m ρ) c (ix2 0 k)) = fun k => aC1 m c (ix1 k) :=
    funext fun k => by rw [V3_v20]; exact row_of_vec256 _ k
  have hb2 : (fun j : Fin 128 => b21 (V3 m ρ) c (ix2 0 j)) = fun j => aC2 m c (ix1 j) :=
    funext fun j => by rw [V3_v21]; exact row_of_vec128 _ j
  show Cert.Spec.mlpOn2 (xn1 (V3 m ρ) c) (ag1 (V3 m ρ) c) (w11 (V3 m ρ) c) (fun k => b11 (V3 m ρ) c (ix2 0 k))
      (w21 (V3 m ρ) c) (fun j => b21 (V3 m ρ) c (ix2 0 j)) = nodeRes _ _ _ _ _ _ _
  rw [hb1, hb2, V3_arg0, V3_v25, V3_arg7, V3_arg9]
  rfl

/-- The edge result: region 0's result array, which nothing after region 0 writes. -/
theorem W4_v22 (c : Dev nD) : W4 m ρ c (Proc.devRef .tc main_v22) = edgeArr m c := by
  rw [W4_of_ne m ρ c main_v22 (by decide)]
  show StableHlo.after hostOps1 (W2 m ρ c) (Proc.devRef .tc main_v22) = _
  after_results
  exact W2_v22 m ρ c

end Run

end Cert.KernelIdeal.Blocks

end
-- ==== Proof.RefRead.lean ====
/-
  The reference program's two results, read at an index on the extended reals.

  The edge model's output entry (i, q) is the two-layer perceptron row of the three rows `i` (the gathered source
  features, the gathered destination features, the edge features) laid end to end, at `q`; the node model's output
  entry (i, q) is the perceptron row of the node's features and the messages summed at it, laid end to end, at `q`.
  Each stage of the program is read at an index from its operands at an index; the composed index maps are the
  plain coordinate pairs, the two bias broadcasts compose to reading the bias at the column, and the rectifier's
  zero is the broadcast constant word.
-/
import proofs.«110657_j25134148616718_1_alg».proof.Proof.Gen.ReferenceIdeal.Read
import proofs.«110657_j25134148616718_1_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-! ## The composed index maps are coordinate pairs -/

theorem lidx24_ix2 (i : Fin 500000) (q : Fin 128) (k : Fin 256) :
    lidx_main_v24 (ix2 i q) k = (ix2 i k : S500000x256.Idx) :=
  funext fun a => Fin.ext (by
    match a with
    | ⟨0, _⟩ => rfl
    | ⟨1, _⟩ => rfl)
theorem ridx24_ix2 (i : Fin 500000) (q : Fin 128) (k : Fin 256) :
    ridx_main_v24 (ix2 i q) k = (ix2 k q : S256x128.Idx) :=
  funext fun a => Fin.ext (by
    match a with
    | ⟨0, _⟩ => rfl
    | ⟨1, _⟩ => rfl)
theorem lidx19_ix2 (i : Fin 500000) (k : Fin 256) (l : Fin 384) :
    lidx_main_v19 (ix2 i k) l = (ix2 i l : S500000x384.Idx) :=
  funext fun a => Fin.ext (by
    match a with
    | ⟨0, _⟩ => rfl
    | ⟨1, _⟩ => rfl)
theorem ridx19_ix2 (i : Fin 500000) (k : Fin 256) (l : Fin 384) :
    ridx_main_v19 (ix2 i k) l = (ix2 l k : S384x256.Idx) :=
  funext fun a => Fin.ext (by
    match a with
    | ⟨0, _⟩ => rfl
    | ⟨1, _⟩ => rfl)
theorem idx20_21_ix1 (i : Fin 500000) (k : Fin 256) :
    idx_main_v20 (idx_main_v21 (ix2 i k)) = (ix1 k : S256.Idx) :=
  funext fun a => Fin.ext (by
    match a with
    | ⟨0, _⟩ => rfl)
theorem idx25_26_ix1 (i : Fin 500000) (q : Fin 128) :
    idx_main_v25 (idx_main_v26 (ix2 i q)) = (ix1 q : S128.Idx) :=
  funext fun a => Fin.ext (by
    match a with
    | ⟨0, _⟩ => rfl)

/-! ## The edge model -/

/-- The three-piece concatenation read at row `i`, column `l`. -/
theorem v18_ix2 (x0 : (⟨S50000x128, .f32⟩ : BufTy).Contents (Elt Ideal)) (x1 : (⟨S2x500000, .i32⟩ : BufTy).Contents (Elt Ideal)) (x2 : (⟨S500000x128, .f32⟩ : BufTy).Contents (Elt Ideal)) (i : Fin 500000) (l : Fin 384) :
    val_main_v18 (F := Ideal) x0 x1 x2 (ix2 i l)
      = Cert.Spec.cat3 (Cert.Spec.row (val_main_v10 (F := Ideal) x0 x1) i) (Cert.Spec.row (val_main_v17 (F := Ideal) x0 x1) i) (Cert.Spec.row x2 i) l := by
  unfold val_main_v18
  exact Cert.Spec.concat3_apply 500000 _ _ _ _ i l

theorem edge_apply (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (i : Fin 500000) (q : Fin 128) :
    val_main_v27 (F := Ideal) x0 x1 x2 x3 x4 x5 x6 (ix2 i q)
      = Cert.Spec.mlpRow (Cert.Spec.cat3 (Cert.Spec.row (val_main_v10 (F := Ideal) x0 x1) i) (Cert.Spec.row (val_main_v17 (F := Ideal) x0 x1) i) (Cert.Spec.row x2 i)) x3 (fun k => x4 (ix1 k)) x5 (fun j => x6 (ix1 j)) q := by
  unfold Cert.Spec.mlpRow
  rw [val_main_v27_apply, val_main_v24_apply, val_main_v26_apply, val_main_v25_apply, Ideal.addf_def, idx25_26_ix1]
  congr 1
  refine Finset.sum_congr rfl fun k _ => ?_
  rw [lidx24_ix2, ridx24_ix2, val_main_v23_apply, val_main_v22_apply, val_main_v19_apply, val_main_v21_apply, val_main_v20_apply,
    val_main_call0_v0_apply, val_main_call0_cst_apply, Ideal.maximumf_def, Ideal.addf_def, Ideal.ofBits_def, idx20_21_ix1]
  congr 3
  refine Finset.sum_congr rfl fun l _ => ?_
  rw [lidx19_ix2, ridx19_ix2, v18_ix2]

/-! ## The node model -/

theorem lidx37_ix2 (i : Fin 50000) (q : Fin 128) (k : Fin 256) :
    lidx_main_v37 (ix2 i q) k = (ix2 i k : S50000x256.Idx) :=
  funext fun a => Fin.ext (by
    match a with
    | ⟨0, _⟩ => rfl
    | ⟨1, _⟩ => rfl)
theorem ridx37_ix2 (i : Fin 50000) (q : Fin 128) (k : Fin 256) :
    ridx_main_v37 (ix2 i q) k = (ix2 k q : S256x128.Idx) :=
  funext fun a => Fin.ext (by
    match a with
    | ⟨0, _⟩ => rfl
    | ⟨1, _⟩ => rfl)
theorem lidx32_ix2 (i : Fin 50000) (k : Fin 256) (l : Fin 256) :
    lidx_main_v32 (ix2 i k) l = (ix2 i l : S50000x256.Idx) :=
  funext fun a => Fin.ext (by
    match a with
    | ⟨0, _⟩ => rfl
    | ⟨1, _⟩ => rfl)
theorem ridx32_ix2 (i : Fin 50000) (k : Fin 256) (l : Fin 256) :
    ridx_main_v32 (ix2 i k) l = (ix2 l k : S256x256.Idx) :=
  funext fun a => Fin.ext (by
    match a with
    | ⟨0, _⟩ => rfl
    | ⟨1, _⟩ => rfl)
theorem idx33_34_ix1 (i : Fin 50000) (k : Fin 256) :
    idx_main_v33 (idx_main_v34 (ix2 i k)) = (ix1 k : S256.Idx) :=
  funext fun a => Fin.ext (by
    match a with
    | ⟨0, _⟩ => rfl)
theorem idx38_39_ix1 (i : Fin 50000) (q : Fin 128) :
    idx_main_v38 (idx_main_v39 (ix2 i q)) = (ix1 q : S128.Idx) :=
  funext fun a => Fin.ext (by
    match a with
    | ⟨0, _⟩ => rfl)

/-- The two-piece concatenation read at row `i`, column `l`. -/
theorem v31_ix2 (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (i : Fin 50000) (l : Fin 256) :
    val_main_v31 (F := Ideal) x0 x1 x2 x3 x4 x5 x6 (ix2 i l)
      = Cert.Spec.cat2 (Cert.Spec.row x0 i) (Cert.Spec.row (val_main_v30 (F := Ideal) x0 x1 x2 x3 x4 x5 x6) i) l := by
  unfold val_main_v31
  exact Cert.Spec.concat2_apply 50000 _ _ _ i l

theorem node_apply (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) (i : Fin 50000) (q : Fin 128) :
    val_main_v40 (F := Ideal) x0 x1 x2 x3 x4 x5 x6 x7 x8 x9 x10 (ix2 i q)
      = Cert.Spec.mlpRow (Cert.Spec.cat2 (Cert.Spec.row x0 i) (Cert.Spec.row (val_main_v30 (F := Ideal) x0 x1 x2 x3 x4 x5 x6) i)) x7 (fun k => x8 (ix1 k)) x9 (fun j => x10 (ix1 j)) q := by
  unfold Cert.Spec.mlpRow
  rw [val_main_v40_apply, val_main_v37_apply, val_main_v39_apply, val_main_v38_apply, Ideal.addf_def, idx38_39_ix1]
  congr 1
  refine Finset.sum_congr rfl fun k _ => ?_
  rw [lidx37_ix2, ridx37_ix2, val_main_v36_apply, val_main_v35_apply, val_main_v32_apply, val_main_v34_apply, val_main_v33_apply,
    val_main_call1_v0_apply, val_main_call1_cst_apply, Ideal.maximumf_def, Ideal.addf_def, Ideal.ofBits_def, idx33_34_ix1]
  congr 3
  refine Finset.sum_congr rfl fun l _ => ?_
  rw [lidx32_ix2, ridx32_ix2, v31_ix2]

/-! ## The whole arrays -/

theorem edge_eq (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) :
    val_main_v27 (F := Ideal) x0 x1 x2 x3 x4 x5 x6
      = Cert.Spec.mlpOn3 (val_main_v10 (F := Ideal) x0 x1) (val_main_v17 (F := Ideal) x0 x1) x2 x3 (fun k => x4 (ix1 k)) x5 (fun j => x6 (ix1 j)) := by
  funext i
  obtain ⟨a, b, rfl⟩ : ∃ a b, i = ix2 a b := ⟨i 0, i 1, eq_ix2 i⟩
  exact (edge_apply x0 x1 x2 x3 x4 x5 x6 a b).trans (Cert.Spec.mlpOn3_apply _ _ _ _ _ _ _ a b).symm

theorem node_eq (x0 : (⟨S50000x128, .f32⟩ : BufTy).Contents (Elt Ideal)) (x1 : (⟨S2x500000, .i32⟩ : BufTy).Contents (Elt Ideal)) (x2 : (⟨S500000x128, .f32⟩ : BufTy).Contents (Elt Ideal)) (x3 : (⟨S384x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (x7 : (⟨S256x256, .f32⟩ : BufTy).Contents (Elt Ideal)) (x8 : (⟨S256, .f32⟩ : BufTy).Contents (Elt Ideal)) (x9 : (⟨S256x128, .f32⟩ : BufTy).Contents (Elt Ideal)) (x10 : (⟨S128, .f32⟩ : BufTy).Contents (Elt Ideal)) :
    val_main_v40 (F := Ideal) x0 x1 x2 x3 x4 x5 x6 x7 x8 x9 x10
      = Cert.Spec.mlpOn2 x0 (val_main_v30 (F := Ideal) x0 x1 x2 x3 x4 x5 x6) x7 (fun k => x8 (ix1 k)) x9 (fun j => x10 (ix1 j)) := by
  funext i
  obtain ⟨a, b, rfl⟩ : ∃ a b, i = ix2 a b := ⟨i 0, i 1, eq_ix2 i⟩
  exact (node_apply x0 x1 x2 x3 x4 x5 x6 x7 x8 x9 x10 a b).trans (Cert.Spec.mlpOn2_apply _ _ _ _ _ _ a b).symm

end Cert.ReferenceIdeal.RefValue

end
-- ==== Proof.Bridge.lean ====
/-
  The reference's two results are the kernel program's two result functions of the arguments.

  Read at an index, the reference's edge result is the perceptron row of the three input rows laid end to end, its
  row inputs the node features gathered along the two rows of the edge index and the edge features: the same
  whole-array function the kernel program's first region leaves. Its node result is the perceptron row of the node
  features and of the edge results summed at their destination nodes; the sum is the same operation on both sides,
  applied to edge results already known equal, so the two node results agree as well.
-/
import proofs.«110657_j25134148616718_1_alg».proof.Proof.KernelValue
import proofs.«110657_j25134148616718_1_alg».proof.Proof.RefRead

noncomputable section

namespace Cert.Bridge

open Idealize.ShloMosaic Idealize.ShloMosaic.ValueIdx
open Cert.ReferenceIdeal Cert.ReferenceIdeal.Read

/-- The reference's edge result is the kernel program's edge result function of the same arguments. -/
theorem edge_bridge (x0 : (⟨S50000x128, .f32⟩ : BufTy).Contents (Elt Ideal)) (x1 : (⟨S2x500000, .i32⟩ : BufTy).Contents (Elt Ideal))
    (x2 : (⟨S500000x128, .f32⟩ : BufTy).Contents (Elt Ideal)) (x3 : (⟨S384x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) :
    val_main_v27 (F := Ideal) x0 x1 x2 x3 x4 x5 x6 = Cert.KernelIdeal.Blocks.edgeRes x0 x1 x2 x3 x4 x5 x6 :=
  (Cert.ReferenceIdeal.RefValue.edge_eq x0 x1 x2 x3 x4 x5 x6).trans rfl

/-- The reference's node result is the kernel program's node result function of the same arguments. -/
theorem node_bridge (x0 : (⟨S50000x128, .f32⟩ : BufTy).Contents (Elt Ideal)) (x1 : (⟨S2x500000, .i32⟩ : BufTy).Contents (Elt Ideal))
    (x2 : (⟨S500000x128, .f32⟩ : BufTy).Contents (Elt Ideal)) (x3 : (⟨S384x256, .f32⟩ : BufTy).Contents (Elt Ideal))
    (x4 : (⟨S256, .f32⟩ : BufTy).Contents (Elt Ideal)) (x5 : (⟨S256x128, .f32⟩ : BufTy).Contents (Elt Ideal))
    (x6 : (⟨S128, .f32⟩ : BufTy).Contents (Elt Ideal)) (x7 : (⟨S256x256, .f32⟩ : BufTy).Contents (Elt Ideal))
    (x8 : (⟨S256, .f32⟩ : BufTy).Contents (Elt Ideal)) (x9 : (⟨S256x128, .f32⟩ : BufTy).Contents (Elt Ideal))
    (x10 : (⟨S128, .f32⟩ : BufTy).Contents (Elt Ideal)) :
    val_main_v40 (F := Ideal) x0 x1 x2 x3 x4 x5 x6 x7 x8 x9 x10
      = Cert.KernelIdeal.Blocks.nodeRes x0 x1 (Cert.KernelIdeal.Blocks.edgeRes x0 x1 x2 x3 x4 x5 x6) x7 x8 x9 x10 := by
  have h30 : val_main_v30 (F := Ideal) x0 x1 x2 x3 x4 x5 x6
      = Cert.KernelIdeal.Blocks.summedAt (Cert.KernelIdeal.Blocks.ends1 x1) (Cert.KernelIdeal.Blocks.edgeRes x0 x1 x2 x3 x4 x5 x6) := by
    unfold val_main_v30
    rw [edge_bridge]
    rfl
  rw [Cert.ReferenceIdeal.RefValue.node_eq, h30]
  rfl

end Cert.Bridge

end
-- ==== Proof.lean ====
/-
  A message-passing layer of a graph network: an edge model and a node model, each a two-layer perceptron with a
  rectifier, over 50000 nodes and 500000 edges.

  Both programs gather the node features along the two rows of the edge index, apply the edge model to the rows
  [source features, destination features, edge features], sum the edge results at their destination nodes, and apply
  the node model to the rows [node features, summed messages]. The kernel program runs each model as a gridded region
  over blocks of 2000 rows, converting its operands to a narrower float format before each matrix product; the
  reference runs them as whole-array host operations. On the extended reals a change of float format is the identity
  and a matrix product into a zero accumulator is the plain sum over the contracted axis, and every row of a result
  depends only on the same row of the row inputs; so block `t` of a region's result is block `t` of the
  reference's whole-array result, the blocks tile the result, and the two programs end with equal results. No
  algebraic law beyond reading both sides at an index is needed, so the finiteness of the inputs is never opened.

  The three frames: the kernel program's and its idealization's are the launch of their segments (host operations,
  region, host operations, region); the reference's is its run with the results dropped. The idealization rewrote no
  operation, so `preserves` has nothing to state.
-/
import proofs.«110657_j25134148616718_1_alg».proof.Defs
import proofs.«110657_j25134148616718_1_alg».proof.Proof.Gen.Kernel
import proofs.«110657_j25134148616718_1_alg».proof.Proof.Gen.Kernel.Skeleton
import proofs.«110657_j25134148616718_1_alg».proof.Proof.Gen.Kernel.Launch
import proofs.«110657_j25134148616718_1_alg».proof.Proof.Gen.Kernel.Points
import proofs.«110657_j25134148616718_1_alg».proof.Proof.Gen.Kernel.Frame
import proofs.«110657_j25134148616718_1_alg».proof.Proof.Gen.KernelIdeal
import proofs.«110657_j25134148616718_1_alg».proof.Proof.Gen.KernelIdeal.Skeleton
import proofs.«110657_j25134148616718_1_alg».proof.Proof.Gen.KernelIdeal.Launch
import proofs.«110657_j25134148616718_1_alg».proof.Proof.Gen.KernelIdeal.Points
import proofs.«110657_j25134148616718_1_alg».proof.Proof.Gen.KernelIdeal.Frame
import proofs.«110657_j25134148616718_1_alg».proof.Proof.Gen.ReferenceIdeal
import proofs.«110657_j25134148616718_1_alg».proof.Proof.Gen.Pre_finite_inputs
import proofs.«110657_j25134148616718_1_alg».proof.Proof.Gen.ReferenceIdeal.Run
import proofs.«110657_j25134148616718_1_alg».proof.Proof.Gen.ReferenceIdeal.Read
import proofs.«110657_j25134148616718_1_alg».proof.Proof.KernelRun
import proofs.«110657_j25134148616718_1_alg».proof.Proof.KernelValue
import proofs.«110657_j25134148616718_1_alg».proof.Proof.RefRead
import proofs.«110657_j25134148616718_1_alg».proof.Proof.Bridge
import Idealize.ShloMosaic.Adequacy
import Idealize.ShloMosaic.Init

noncomputable section

namespace Cert.Proof

open Idealize.ShloMosaic Idealize.SL.Sem

/-- The kernel program runs and leaves its arguments as launched. -/
theorem frame_kernel : Cert.frame_Kernel := fun m ρ _ => Cert.Kernel.Gen.frame m ρ

/-- Its idealization runs and leaves its arguments as launched. -/
theorem frame_kernel_ideal : Cert.frame_KernelIdeal := fun m ρ _ => Cert.KernelIdeal.Gen.frame m ρ

/-- The reference runs and leaves its arguments as launched: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the arguments both programs end with the node result and the edge result at the same
    two functions of the arguments. -/
theorem algebraic : Cert.algebraic_KernelIdeal_ReferenceIdeal := by
  intro m ρ m' ρ' _ hagree
  refine ⟨fun c => Cert.KernelIdeal.Blocks.nodeArr m c, fun c => Cert.KernelIdeal.Blocks.edgeArr m c, ?_, ?_⟩
  · exact (θ_run Cert.KernelIdeal.defs _ _).mono
      (fun _ h c => ⟨(h c).1.trans (Cert.KernelIdeal.Blocks.W4_v26 m ρ c), (h c).2.1.trans (Cert.KernelIdeal.Blocks.W4_v22 m ρ c), (h c).2.2⟩)
      (Cert.KernelIdeal.RunValue.run_results (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · obtain ⟨e0, e1, e2, e3, e4, e5, e6, e7, e8, e9, e10⟩ := hagree c
      rw [e0, e1, e2, e3, e4, e5, e6, e7, e8, e9, e10]
      exact Cert.Bridge.node_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    · obtain ⟨e0, e1, e2, e3, e4, e5, e6, e7, e8, e9, e10⟩ := hagree c
      rw [e0, e1, e2, e3, e4, e5, e6]
      exact Cert.Bridge.edge_bridge (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
